-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩
abbrev S512x4096 : Shape := ⟨2, ![512, 4096]⟩
abbrev S1x512 : Shape := ⟨2, ![1, 512]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x4096.size a
  hwx1_3 : ∀ i : grid1.Coords, EltTy.bits .f32 = 32 ∨ (Rect.block (s := S8192x4096) S512x512.size (cc1_transform_3 i) (hinb1_3 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_c_1 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  What both programs compute, written once over the extended reals as functions of the three argument
  arrays x : 8192 × 4096, w : 4096 × 4096 and b : 4096.

  Each row j of w has a scale n_j = max (sqrt (Σ_k w_jk²)) ε, with ε the binary32 value nearest 1e-8.  The
  entry w_jk is sent to the lattice level  ℓ_jk = min 7 (max (−8) (round (w_jk / n_j · 60)))  (rounding to the
  nearest integer, ties to even) and then back to  q_jk = ℓ_jk · n_j / 60.  The result is the affine map
  out_ij = Σ_k x_ik · q_jk + b_j : the product of x with the transpose of the quantized weight, plus the
  bias along each row.

  The second stage is stated on its own (`affine`) over an arbitrary weight array and a 1 × 4096 bias row,
  because that is what the second launch sees; `out` is `affine` at the quantized weight and the bias laid
  out as a row.
-/
import Idealize.ShloMosaic.PureOps.Ideal
import Idealize.ShloMosaic.Lib.ValueIdx

noncomputable section

open scoped BigOperators

namespace Cert.Spec

open Idealize.ShloMosaic Idealize.ShloMosaic.ValueIdx

/-- The weight's shape. -/
abbrev SW : Shape := ⟨2, ![4096, 4096]⟩
/-- The activation's (and the result's) shape. -/
abbrev SX : Shape := ⟨2, ![8192, 4096]⟩
/-- The bias's shape, -/
abbrev SB : Shape := ⟨1, ![4096]⟩
/-- and the bias laid out as one row. -/
abbrev SR : Shape := ⟨2, ![1, 4096]⟩

/-- The floor ε under a row's norm: the binary32 word both programs spell for 1e-8. -/
def floorEps : EReal := Ideal.ofBits .f32 0x322BCC77#32
/-- The lattice's scale factor, the binary32 word for 60. -/
def sixty : EReal := Ideal.ofBits .f32 0x42700000#32

/-- Row j's scale: the Euclidean norm of the row, floored at ε. -/
def rowScale (w : SW.Idx → EReal) (j : Fin 4096) : EReal :=
  max (Ideal.sqrt (∑ k : Fin 4096, w (ix2 j k) * w (ix2 j k))) floorEps

/-- The lattice level of entry (j, k): the entry over its row's scale, times 60, rounded to the nearest
    integer (ties to even) and clipped to [−8, 7]. -/
def level (w : SW.Idx → EReal) (j k : Fin 4096) : EReal :=
  min ((7 : ℝ) : EReal)
    (max ((-8 : ℝ) : EReal)
      (Ideal.liftRound Ideal.roundHalfEven (Ideal.div (w (ix2 j k)) (rowScale w j) * sixty)))

/-- The quantized weight: each level scaled back by its row's scale over 60. -/
def quant (w : SW.Idx → EReal) : SW.Idx → EReal := fun i =>
  Ideal.div (level w (i 0) (i 1) * rowScale w (i 0)) sixty

/-- The affine stage over any weight array q and bias row r: out_ij = Σ_k x_ik · q_jk + r_{0 j}. -/
def affine (x : SX.Idx → EReal) (q : SW.Idx → EReal) (r : SR.Idx → EReal) : SX.Idx → EReal := fun i =>
  (∑ k : Fin 4096, x (ix2 (i 0) k) * q (ix2 (i 1) k)) + r (ix2 (0 : Fin 1) (i 1))

/-- The bias as a row: entry (0, j) is b_j. -/
def biasRow (b : SB.Idx → EReal) : SR.Idx → EReal := fun i => b (ix1 (i 1))

/-- The whole computation. -/
def out (x : SX.Idx → EReal) (w : SW.Idx → EReal) (b : SB.Idx → EReal) : SX.Idx → EReal :=
  affine x (quant w) (biasRow b)

/-- The whole computation at an index, by coordinates. -/
theorem out_apply (x : SX.Idx → EReal) (w : SW.Idx → EReal) (b : SB.Idx → EReal) (p : Fin 8192) (j : Fin 4096) :
    out x w b (ix2 p j) = (∑ k : Fin 4096, x (ix2 p k) * quant w (ix2 j k)) + b (ix1 j) := rfl

end Cert.Spec

end
-- ==== Proof.Finite.lean ====
/-
  What the precondition says of the weight.  The precondition is the conjunction, over the three argument
  arrays, of "every entry's absolute value is below +∞".  Its middle conjunct, read at an entry of the
  weight, says max w (−w) < +∞ on the extended reals, which excludes both infinities: every entry of the
  weight is a real number.
-/
import proofs.«165504_j27015344292269_1_alg».proof.Pre_finite_inputs
import proofs.«165504_j27015344292269_1_alg».proof.Proof.Gen.Pre_finite_inputs
import Idealize.ShloMosaic.PureOps.Ideal
import Idealize.ShloMosaic.Lib.ValueIdx
import Idealize.ShloMosaic.Lib.ReduceAll
import Idealize.ShloMosaic.Lib.Affine

noncomputable section

namespace Cert.Finite

open Idealize.ShloMosaic

/-- The scalar shape has one index. -/
instance : Subsingleton Cert.Pre_finite_inputs.S_.Idx := ⟨fun a b => funext fun d => d.elim0⟩

/-- The binary32 word 0x7F800000 denotes +∞. -/
theorem ofBits_inf : Ideal.ofBits .f32 0x7F800000#32 = ⊤ := by
  simp [Ideal.ofBits, Ideal.ieee]

/-- An extended real whose absolute value max x (−x) is below +∞ is neither infinity. -/
theorem finite_of_abs_lt (x : EReal) (h : Ideal.cmp .olt (max x (-x)) (Ideal.ofBits .f32 0x7F800000#32) = 1#1) :
    x ≠ ⊤ ∧ x ≠ ⊥ := by
  rw [ofBits_inf] at h
  induction x using EReal.rec with
  | bot => exact absurd h (by simp [Ideal.cmp])
  | top => exact absurd h (by simp [Ideal.cmp])
  | coe r => exact ⟨EReal.coe_ne_top r, EReal.coe_ne_bot r⟩

/-- Under the precondition every entry of the weight is a real number. -/
theorem weight_finite (a0 : FVec Ideal Cert.Pre_finite_inputs.S8192x4096 .f32)
    (a1 : FVec Ideal Cert.Pre_finite_inputs.S4096x4096 .f32) (a2 : FVec Ideal Cert.Pre_finite_inputs.S4096 .f32)
    (h : Cert.Pre_finite_inputs.fn (F := Ideal) a0 a1 a2 = fun _ => 1#1) (i : Cert.Pre_finite_inputs.S4096x4096.Idx) :
    a1 i ≠ ⊤ ∧ a1 i ≠ ⊥ := by
  have h0 := congrFun h ValueIdx.ix0
  dsimp only [Cert.Pre_finite_inputs.fn] at h0
  obtain ⟨h01, -⟩ := IntOp.andi_eq_one.1 h0
  obtain ⟨-, h1⟩ := IntOp.andi_eq_one.1 h01
  have e := Host.reduce_andi_all _ _ _ _ _ h1 i
  exact finite_of_abs_lt (a1 i) e

end Cert.Finite

end
-- ==== Proof.Consts.lean ====
/-
  The two clip bounds of the lattice, in the two spellings the programs use.  One program writes them as
  binary32 words (0xC1000000 and 0x40E00000), the other as the 32-bit integers −8 and 7 converted to a
  float; over the extended reals all four are the reals −8 and 7.
-/
import Idealize.ShloMosaic.PureOps.Ideal

noncomputable section

namespace Cert.Consts

open Idealize.ShloMosaic

/-- The binary32 word 0xC1000000 denotes −8. -/
theorem ofBits_neg8 : Ideal.ofBits .f32 0xC1000000#32 = ((-8 : ℝ) : EReal) := by
  simp [Ideal.ofBits, Ideal.ieee, -EReal.coe_mul]; norm_num

/-- The binary32 word 0x40E00000 denotes 7. -/
theorem ofBits_7 : Ideal.ofBits .f32 0x40E00000#32 = ((7 : ℝ) : EReal) := by
  simp [Ideal.ofBits, Ideal.ieee, -EReal.coe_mul]; norm_num

/-- The 32-bit word 4294967288 read as a signed integer is −8. -/
theorem toInt_neg8 : (((4294967288#32 : BitVec 32).toInt : ℝ) : EReal) = ((-8 : ℝ) : EReal) := by
  have h : (4294967288#32 : BitVec 32).toInt = -8 := by decide
  rw [h]; norm_num

/-- The 32-bit word 7 read as a signed integer is 7. -/
theorem toInt_7 : (((7#32 : BitVec 32).toInt : ℝ) : EReal) = ((7 : ℝ) : EReal) := by
  have h : (7#32 : BitVec 32).toInt = 7 := by decide
  rw [h]; norm_num

end Cert.Consts

end
-- ==== Proof.LibKeepdims.lean ====
/-
  Two layout readings that every row statistic kept as a column needs: a vector of `a` entries
  viewed as an `a × 1` column reads its entry `i` at `(i, 0)`, and an `a × 1` column broadcast to
  `a × b` reads, at `(p, c)`, the column's entry of row `p` — the column is repeated along the
  second axis. Both are stated over literal shapes with the indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` vector cast to an `[a, 1]` column reads, at `(i, u)`, the vector at `i`, whatever the unit
    coordinate `u`: both indices sit at row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`: the first axis is
    carried (or, when `a = 1`, is the unit axis read at `0`, which is `p`), the unit second axis is read at `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.QuantRegion.lean ====
/-
  The first launch: 16 grid points, point t holding rows 256·t … 256·t + 255 of the weight (all 4096
  columns).  Each point writes back its block of the quantized weight, and the 16 blocks tile the array, so
  after the launch the output array is the quantized weight of the array the launch found.
-/
import proofs.«165504_j27015344292269_1_alg».proof.Proof.Gen.KernelIdeal.Frame
import proofs.«165504_j27015344292269_1_alg».proof.Proof.Spec
import proofs.«165504_j27015344292269_1_alg».proof.Proof.Consts
import proofs.«165504_j27015344292269_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.QuantRegion

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The sum along a row of a 256 × 4096 block: the lane reduction at row r is the sum over the 4096 columns of
    the block's entries in that row. -/
theorem rowSum_apply (x : FVec Ideal S256x4096 .f32) (h : S256x4096.Reduces [1] S256) (hφ : FKind.Formats .f32)
    (hacc : (0x00000000#32 : BitVec 32) = FKind.add.neutral .f32 hφ) (r : Fin 256) :
    multiReduction (F := Ideal) .add [1] S256 x 0x00000000#32 h hφ hacc (ix1 r) = ∑ k : Fin 4096, x (ix2 r k) := by
  refine (Ideal.multiReduction_add_single x 0x00000000#32 h hφ hacc (ix1 r)).trans ?_
  show ∑ k : Fin 4096, x (h.lift (ix1 r) k) = _
  refine Finset.sum_congr rfl fun k _ => congrArg x ?_
  funext a; apply Fin.ext
  match a with
  | ⟨0, _⟩ => rfl
  | ⟨1, _⟩ => rfl

/-- The column of row scales as the body forms it from a block: the lane sum of the squares, kept as a column,
    its square root, floored at ε. -/
def scaleCol (x0 : Vec Ideal S256x4096 .f32) : FVec Ideal S256x1 .f32 :=
  maximumf (sqrt (shapeCast S256x1 (multiReduction (F := Ideal) .add [1] S256 (mulf x0 x0) 0x00000000#32 reduces_S256x4096_S256 (.inl rfl) rfl) shapeCasts_S256_S256x1))
    (broadcast S256x1 (Scalar.ofBits (F := Ideal) .f32 0x322BCC77#32))

/-- The scale of row p of a block, as a number. -/
def blockScale (x0 : Vec Ideal S256x4096 .f32) (p : Fin 256) : EReal :=
  max (Ideal.sqrt (∑ k : Fin 4096, x0 (ix2 p k) * x0 (ix2 p k))) Cert.Spec.floorEps

/-- The column of scales read at row p (its one column u): the lane sum is the row's sum of squares, the cast to a
    column keeps row p at (p, u), and the square root and the floor act entry by entry. -/
theorem scaleCol_apply (x0 : Vec Ideal S256x4096 .f32) (p : Fin 256) (u : Fin 1) :
    scaleCol x0 (ix2 p u) = blockScale x0 p := by
  show max (Ideal.sqrt (shapeCast S256x1 (multiReduction (F := Ideal) .add [1] S256 (mulf x0 x0) 0x00000000#32 reduces_S256x4096_S256 (.inl rfl) rfl) shapeCasts_S256_S256x1 (ix2 p u))) (Ideal.ofBits .f32 0x322BCC77#32) = _
  exact congrArg (fun s => max (Ideal.sqrt s) Cert.Spec.floorEps)
    ((Cert.LibKeepdims.shapeCast_a_a1_apply _ shapeCasts_S256_S256x1 p u).trans (rowSum_apply (mulf x0 x0) _ _ _ p))

/-- What the body stores, at entry (p, q) of a block: the entry over its row's scale, times 60, rounded to the nearest
    integer (ties to even), clipped to [−8, 7], times the row's scale again, over 60.  The column of scales
    repeated along the columns reads row p's scale at every (p, q); the two clip bounds, spelt as binary32 words,
    are the reals −8 and 7; the closing format change is the identity on extended reals. -/
theorem pay_apply (x0 : Vec Ideal S256x4096 .f32) (p : Fin 256) (q : Fin 4096) :
    k0_pay1 (F := Ideal) x0 (ix2 p q)
      = Ideal.div (min ((7 : ℝ) : EReal) (max ((-8 : ℝ) : EReal)
          (Ideal.liftRound Ideal.roundHalfEven (Ideal.div (x0 (ix2 p q)) (blockScale x0 p) * Cert.Spec.sixty))) * blockScale x0 p) Cert.Spec.sixty := by
  have hb : broadcastTo S256x4096 (scaleCol x0) broadcasts_S256x1_S256x4096 (ix2 p q) = blockScale x0 p :=
    (Cert.LibKeepdims.broadcastTo_a1_ab_apply (scaleCol x0) broadcasts_S256x1_S256x4096 p q).trans (scaleCol_apply x0 p 0)
  show Ideal.div (min (Ideal.ofBits .f32 0x40E00000#32) (max (Ideal.ofBits .f32 0xC1000000#32)
      (Ideal.liftRound Ideal.roundHalfEven (Ideal.div (x0 (ix2 p q)) (broadcastTo S256x4096 (scaleCol x0) broadcasts_S256x1_S256x4096 (ix2 p q)) * Ideal.ofBits .f32 0x42700000#32)))
      * broadcastTo S256x4096 (scaleCol x0) broadcasts_S256x1_S256x4096 (ix2 p q)) (Ideal.ofBits .f32 0x42700000#32) = _
  rw [hb, Cert.Consts.ofBits_neg8, Cert.Consts.ofBits_7]
  rfl

variable (V : (c : Dev nD) → (b : Ref sig .tc) → Buf (Elt Ideal) ((c : Thread nD τ).loc b))

/-- The body's accesses start at the origin of their buffers. -/
theorem origin_zero : (![0, 0] : Fin 2 → Nat) = fun _ => 0 := funext fun a => by fin_cases a <;> rfl

/-- The two windows' block indices, decided over the 16 points: the input block and the output block of a point sit
    at the same place, the row index is at most 15 and the column index is 0. -/
theorem blockIdx_facts : ∀ t : Fin cfg0.N, win0_0.index t (0 : Fin 2) = win0_1.index t (0 : Fin 2)
    ∧ win0_0.index t (1 : Fin 2) = win0_1.index t (1 : Fin 2)
    ∧ win0_1.index t (0 : Fin 2) ≤ 15 ∧ win0_1.index t (1 : Fin 2) = 0 :=
  (by decide +kernel : ∀ t : Fin grid0.N, _)

/-- What point t writes back is block t of the quantized weight of the array the launch found: the point's input
    block and output block sit at the same rows (all columns), so entry (p, q) of the block is entry
    (256·(block index) + p, q) of the array, its row of the block is that row of the array, and the row's scale
    read off the block is the row's scale read off the array. -/
theorem flushed_eq (c : Dev nD) (t : Fin cfg0.N) :
    (dat0 (F := Ideal) V c).flushed 1 t = ((cfg0.win 1).blk t).view.read (Elt Ideal) (Cert.Spec.quant (V c main_arg1)) := by
  show (cfg0.win 1).cut (grid0.coords t) ((dat0 V c).after 1 t) = _
  rw [after0_1]
  unfold out0_1
  rw [View.canon_unit_zero origin_zero]
  simp only [View.ld_unit_zero (S := S256x4096) origin_zero]
  obtain ⟨e0, e1, e2, e3⟩ := blockIdx_facts t
  funext j
  obtain ⟨p, q, rfl⟩ : ∃ (p : Fin 256) (q : Fin 4096), j = ix2 p q := ⟨j 0, j 1, eq_ix2 j⟩
  show k0_pay1 (F := Ideal) (iblk0 V c 0 t) (ix2 p q) = Cert.Spec.quant (V c main_arg1) (((cfg0.win 1).blk t).view.emb (ix2 p q))
  refine (pay_apply _ p q).trans ?_
  -- the array index of the block's entry (p, q): row 256·(block index) + p, column q
  have hcol : ((cfg0.win 1).blk t).view.emb (ix2 p q) (1 : Fin 2) = q := by
    apply Fin.ext
    show win0_1.index t (1 : Fin 2) * 4096 + 1 * q.val = q.val
    omega
  have hidx : ((cfg0.win 1).blk t).view.emb (ix2 p q) = ix2 (((cfg0.win 1).blk t).view.emb (ix2 p q) (0 : Fin 2)) q :=
    (eq_ix2 _).trans (congrArg (ix2 _) hcol)
  -- the input block's row p is row 256·(block index) + p of the array
  have hin : ∀ k : Fin 4096, iblk0 V c 0 t (ix2 p k) = V c main_arg1 (ix2 (((cfg0.win 1).blk t).view.emb (ix2 p q) (0 : Fin 2)) k) := fun k => by
    show V c main_arg1 (((cfg0.win 0).blk t).view.emb (ix2 p k)) = _
    refine congrArg (V c main_arg1) ?_
    funext a; apply Fin.ext
    match a with
    | ⟨0, _⟩ => show win0_0.index t (0 : Fin 2) * 256 + 1 * p.val = win0_1.index t (0 : Fin 2) * 256 + 1 * p.val; omega
    | ⟨1, _⟩ => show win0_0.index t (1 : Fin 2) * 4096 + 1 * k.val = k.val; omega
  have hscale : blockScale (iblk0 V c 0 t) p = Cert.Spec.rowScale (V c main_arg1) (((cfg0.win 1).blk t).view.emb (ix2 p q) (0 : Fin 2)) := by
    unfold blockScale Cert.Spec.rowScale
    refine congrArg (fun s => max (Ideal.sqrt s) Cert.Spec.floorEps) (Finset.sum_congr rfl fun k _ => ?_)
    rw [hin k]
  rw [hidx, hscale, hin q]
  rfl

/-- An array index lies in point t's output block exactly when, on each axis, its coordinate lies in the block's
    range: block index × block size up to that plus the block size. -/
theorem mem_block (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0).slice (win0_1.rect t)).set ↔ _
  rw [View.set_slice_whole, Rect.mem_set_unit]
  exact Iff.rfl

/-- Every one of the 16 row blocks is some point's output block. -/
theorem blockIdx_onto : ∀ q0 : Fin 16, ∃ t : Fin cfg0.N, win0_1.index t = ![q0.val, 0] :=
  (by decide +kernel : ∀ q0 : Fin 16, ∃ t : Fin grid0.N, win0_1.index t = ![q0.val, 0])

/-- The 16 output blocks cover the array: row r lies in the block of index r / 256, and every block spans all columns. -/
theorem covered (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  obtain ⟨t, ht⟩ := blockIdx_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 4096 ≤ (i 1).val ∧ (i 1).val < win0_1.index t (1 : Fin 2) * 4096 + 4096; omega

/-- After the first launch its output array holds the quantized weight of the weight array it was entered with. -/
theorem arr_quant (c : Dev nD) : (dat0 (F := Ideal) V c).arrAt 1 cfg0.N = Cert.Spec.quant (V c main_arg1) :=
  (dat0 (F := Ideal) V c).arrAt_eq_of_cover 1 (Cert.Spec.quant (V c main_arg1)) (fun t _ => flushed_eq V c t) covered

end Cert.KernelIdeal.QuantRegion

end
-- ==== Proof.AffineRegion.lean ====
/-
  The second launch: a 16 × 8 grid, point (a, b) holding rows 512·a … of the activation, rows 512·b … of
  the (quantized) weight, columns 512·b … of the bias row, and writing the 512 × 512 block (a, b) of the
  result.  The 128 blocks tile the result, so after the launch the output array is the affine map of the
  three arrays the launch found.
-/
import proofs.«165504_j27015344292269_1_alg».proof.Proof.Gen.KernelIdeal.Frame
import proofs.«165504_j27015344292269_1_alg».proof.Proof.Spec
import proofs.«165504_j27015344292269_1_alg».proof.Proof.Consts
import proofs.«165504_j27015344292269_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.AffineRegion

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The product's operand indices, axis by axis

The contraction runs over axis 1 of both operands; axis 0 of the left operand is the result's axis 0 and axis 0 of
the right operand is the result's axis 1 (the right operand enters transposed). -/

/-- Left operand, axis 0: the result's row. -/
theorem lhs_dot_0 (i : S512x512.Idx) (q : Cert.KernelIdeal.dot_S512x4096_S512x4096_S512x512_1_1_0_0_n_n.contr.Idx) :
    (Cert.KernelIdeal.dot_S512x4096_S512x4096_S512x512_1_1_0_0_n_n.lhsIdx i q 0).val = (i 0).val := by
  unfold DotDims.lhsIdx
  rw [dif_neg (show ¬(0 : Fin S512x4096.rank) ∈ Cert.KernelIdeal.dot_S512x4096_S512x4096_S512x512_1_1_0_0_n_n.lhsBatch by decide), dif_pos (show (0 : Fin S512x4096.rank) ∈ Cert.KernelIdeal.dot_S512x4096_S512x4096_S512x512_1_1_0_0_n_n.lhsNonContracting by decide)]
  rfl

/-- Left operand, axis 1: the contraction coordinate. -/
theorem lhs_dot_1 (i : S512x512.Idx) (q : Cert.KernelIdeal.dot_S512x4096_S512x4096_S512x512_1_1_0_0_n_n.contr.Idx) :
    (Cert.KernelIdeal.dot_S512x4096_S512x4096_S512x512_1_1_0_0_n_n.lhsIdx i q 1).val = (q ⟨0, by decide⟩).val :=
  Cert.KernelIdeal.dot_S512x4096_S512x4096_S512x512_1_1_0_0_n_n.lhsIdx_val_of_single rfl i q

/-- Right operand, axis 0: the result's column. -/
theorem rhs_dot_0 (i : S512x512.Idx) (q : Cert.KernelIdeal.dot_S512x4096_S512x4096_S512x512_1_1_0_0_n_n.contr.Idx) :
    (Cert.KernelIdeal.dot_S512x4096_S512x4096_S512x512_1_1_0_0_n_n.rhsIdx i q 0).val = (i 1).val := by
  unfold DotDims.rhsIdx
  rw [dif_neg (show ¬(0 : Fin S512x4096.rank) ∈ Cert.KernelIdeal.dot_S512x4096_S512x4096_S512x512_1_1_0_0_n_n.rhsBatch by decide), dif_pos (show (0 : Fin S512x4096.rank) ∈ Cert.KernelIdeal.dot_S512x4096_S512x4096_S512x512_1_1_0_0_n_n.rhsNonContracting by decide)]
  rfl

/-- Right operand, axis 1: the contraction coordinate. -/
theorem rhs_dot_1 (i : S512x512.Idx) (q : Cert.KernelIdeal.dot_S512x4096_S512x4096_S512x512_1_1_0_0_n_n.contr.Idx) :
    (Cert.KernelIdeal.dot_S512x4096_S512x4096_S512x512_1_1_0_0_n_n.rhsIdx i q 1).val = (q ⟨0, by decide⟩).val :=
  Cert.KernelIdeal.dot_S512x4096_S512x4096_S512x512_1_1_0_0_n_n.rhsIdx_val_of_single rfl i q

/-- The product into the zero accumulator, at an index: the sum over the shared axis of the two rows' products. -/
theorem matmul_at (y0 y1 : FVec Ideal S512x4096 .bf16) (p q : Fin 512) :
    matmul (F := Ideal) Cert.KernelIdeal.dot_S512x4096_S512x4096_S512x512_1_1_0_0_n_n none y0 y1 (constant (F := Ideal) S512x512 .f32 0x00000000#32) (ix2 p q)
      = ∑ k : Fin 4096, y0 (ix2 p k) * y1 (ix2 q k) := by
  simp only [matmul]
  rw [Ideal.matmul_constant_zero_apply, ← Equiv.sum_comp (ValueIdx.contrEquiv1 Cert.KernelIdeal.dot_S512x4096_S512x4096_S512x512_1_1_0_0_n_n 4096 rfl rfl).symm]
  refine Finset.sum_congr rfl fun k _ => ?_
  have hk := ValueIdx.contrEquiv1_symm_val Cert.KernelIdeal.dot_S512x4096_S512x4096_S512x512_1_1_0_0_n_n 4096 rfl rfl k
  have el : Cert.KernelIdeal.dot_S512x4096_S512x4096_S512x512_1_1_0_0_n_n.lhsIdx (ix2 p q) ((ValueIdx.contrEquiv1 Cert.KernelIdeal.dot_S512x4096_S512x4096_S512x512_1_1_0_0_n_n 4096 rfl rfl).symm k) = ix2 p k := funext fun a => Fin.ext (by
    match a with
    | ⟨0, _⟩ => exact lhs_dot_0 _ _
    | ⟨1, _⟩ => exact (lhs_dot_1 _ _).trans hk)
  have er : Cert.KernelIdeal.dot_S512x4096_S512x4096_S512x512_1_1_0_0_n_n.rhsIdx (ix2 p q) ((ValueIdx.contrEquiv1 Cert.KernelIdeal.dot_S512x4096_S512x4096_S512x512_1_1_0_0_n_n 4096 rfl rfl).symm k) = ix2 q k := funext fun a => Fin.ext (by
    match a with
    | ⟨0, _⟩ => exact rhs_dot_0 _ _
    | ⟨1, _⟩ => exact (rhs_dot_1 _ _).trans hk)
  rw [el, er]

/-- The body's stored value at an index of the 512 × 512 block: row p of the activation block against row q of the
    weight block, summed over the 4096 shared columns, plus the bias row's entry q.  The narrowing of the activation
    is the identity over the extended reals, the same-shape casts are identities, and the bias row is repeated down
    the 512 rows. -/
theorem pay_at (x0 : Vec Ideal S512x4096 .f32) (x1 : Vec Ideal S512x4096 .bf16) (x2 : Vec Ideal S1x512 .f32) (p q : Fin 512) :
    k1_pay1 (F := Ideal) x0 x1 x2 (ix2 p q) = (∑ k : Fin 4096, x0 (ix2 p k) * x1 (ix2 q k)) + x2 (ix2 (0 : Fin 1) q) := by
  unfold k1_pay1
  rw [shapeCast_self, shapeCast_self, shapeCast_self]
  show matmul (F := Ideal) Cert.KernelIdeal.dot_S512x4096_S512x4096_S512x512_1_1_0_0_n_n none _ _ _ (ix2 p q) + broadcastTo S512x512 x2 broadcasts_S1x512_S512x512 (ix2 p q) = _
  refine (congrArg₂ (· + ·) (matmul_at _ _ p q) (broadcastTo_1b_ab_apply x2 broadcasts_S1x512_S512x512 p q)).trans ?_
  rfl

/-! ## From the blocks to the array -/

/-- The zero offset of every access of the body, as a constant function. -/
theorem zero_offset : (![0, 0] : Fin 2 → Nat) = fun _ => 0 := funext fun a => by fin_cases a <;> rfl

/-- The four index maps, decided over the 16 × 8 grid: the activation's block follows the result's block row and spans
    all columns; the weight's block follows the result's block COLUMN and spans all columns; the bias row's block
    follows the result's block column; the result's block indices stay below 16 and 8. -/
theorem index_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 15 ∧ win1_3.index t (1 : Fin 2) ≤ 7 :=
  (by decide +kernel : ∀ t : Fin grid1.N, _)

/-- Every block of the 16 × 8 tiling is some point's. -/
theorem index_onto : ∀ (q0 : Fin 16) (q1 : Fin 8), ∃ t : Fin cfg1.N, win1_3.index t = ![q0.val, q1.val] :=
  (by decide +kernel : ∀ (q0 : Fin 16) (q1 : Fin 8), ∃ t : Fin grid1.N, win1_3.index t = ![q0.val, q1.val])

/-- What point t writes back is block t of the affine map of the three arrays the launch found. -/
theorem flushed_affine (c : Dev nD) (t : Fin cfg1.N) :
    (dat1 (F := Ideal) V c).flushed 3 t
      = ((cfg1.win 3).blk t).view.read (Elt Ideal) (Cert.Spec.affine (V c main_arg0) (V c main_v0) (V c main_v1)) := by
  show (cfg1.win 3).cut (grid1.coords t) ((dat1 (F := Ideal) V c).after 3 t) = _
  rw [after1_3]
  unfold out1_3
  rw [View.canon_unit_zero zero_offset]
  simp only [View.ld_unit_zero (S := S512x4096) zero_offset, View.ld_unit_zero (S := S1x512) zero_offset]
  obtain ⟨e0, e1, e2, e3, e4, e5, e6, e7⟩ := index_facts t
  funext j
  obtain ⟨p, q, rfl⟩ : ∃ (p q : Fin 512), j = ix2 p q := ⟨j 0, j 1, eq_ix2 j⟩
  refine (pay_at (iblk1 (F := Ideal) V c 0 t) (iblk1 (F := Ideal) V c 1 t) (iblk1 (F := Ideal) V c 2 t) p q).trans ?_
  -- the array index the result's block sends (p, q) to, and its two coordinates
  obtain ⟨i, hi⟩ : ∃ i : Cert.Spec.SX.Idx, i = ((cfg1.win 3).blk t).view.emb (ix2 p q) := ⟨_, rfl⟩
  have hi0 : (i 0).val = win1_3.index t (0 : Fin 2) * 512 + 1 * p.val := by rw [hi]; rfl
  have hi1 : (i 1).val = win1_3.index t (1 : Fin 2) * 512 + 1 * q.val := by rw [hi]; rfl
  -- the activation's block reads row (i 0) of the activation, all columns
  have h0 : ∀ k : Fin 4096, ((cfg1.win 0).blk t).view.emb (ix2 p k) = ix2 (i 0) k := by
    intro k; funext a; apply Fin.ext
    match a with
    | ⟨0, _⟩ => show win1_0.index t (0 : Fin 2) * 512 + 1 * p.val = (i 0).val; omega
    | ⟨1, _⟩ => show win1_0.index t (1 : Fin 2) * 4096 + 1 * k.val = k.val; omega
  -- the weight's block reads row (i 1) of the weight, all columns
  have h1 : ∀ k : Fin 4096, ((cfg1.win 1).blk t).view.emb (ix2 q k) = ix2 (i 1) k := by
    intro k; funext a; apply Fin.ext
    match a with
    | ⟨0, _⟩ => show win1_1.index t (0 : Fin 2) * 512 + 1 * q.val = (i 1).val; omega
    | ⟨1, _⟩ => show win1_1.index t (1 : Fin 2) * 4096 + 1 * k.val = k.val; omega
  -- the bias row's block reads column (i 1) of the one row
  have h2 : ((cfg1.win 2).blk t).view.emb (ix2 (0 : Fin 1) q) = ix2 (0 : Fin 1) (i 1) := by
    funext a; apply Fin.ext
    match a with
    | ⟨0, _⟩ => show win1_2.index t (0 : Fin 2) * 1 + 1 * 0 = 0; omega
    | ⟨1, _⟩ => show win1_2.index t (1 : Fin 2) * 512 + 1 * q.val = (i 1).val; omega
  show _ = Cert.Spec.affine (V c main_arg0) (V c main_v0) (V c main_v1) (((cfg1.win 3).blk t).view.emb (ix2 p q))
  rw [← hi]
  unfold Cert.Spec.affine
  refine congrArg₂ (fun (a b : EReal) => a + b) (Finset.sum_congr rfl fun k _ => ?_) ?_
  · exact congrArg₂ (fun (a b : EReal) => a * b) (congrArg (V c main_arg0) (h0 k)) (congrArg (V c main_v0) (h1 k))
  · exact congrArg (V c main_v1) h2

/-- An index of the result array lies in point t's block iff, on each axis, its coordinate lies in the 512 entries the
    block holds there. -/
theorem mem_block (t : Fin cfg1.N) (i : S8192x4096.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v2).slice (win1_3.rect t)).set ↔ _
  rw [View.set_slice_whole, Rect.mem_set_unit]
  exact Iff.rfl

/-- The 128 blocks tile the result: index (r, s) lies in block (r / 512, s / 512), which some point writes back. -/
theorem covered (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := index_onto ⟨(i 0).val / 512, by omega⟩ ⟨(i 1).val / 512, by omega⟩
  have q0 : win1_3.index t (0 : Fin 2) = (i 0).val / 512 := congrFun ht 0
  have q1 : win1_3.index t (1 : Fin 2) = (i 1).val / 512 := congrFun ht 1
  refine ⟨t, flush1_3 t, ?_⟩
  rw [mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- After the second launch its output array holds the affine map of the activation, the weight array and the
    bias row it was entered with. -/
theorem arr_affine (c : Dev nD) :
    (dat1 (F := Ideal) V c).arrAt 3 cfg1.N = Cert.Spec.affine (V c main_arg0) (V c main_v0) (V c main_v1) :=
  (dat1 (F := Ideal) V c).arrAt_eq_of_cover 3 (Cert.Spec.affine (V c main_arg0) (V c main_v0) (V c main_v1))
    (fun t _ => flushed_affine V c t) covered

end Cert.KernelIdeal.AffineRegion

end
-- ==== Proof.Compose.lean ====
/-
  The idealized kernel program end to end.  Its run passes three boundaries: after the first launch the
  scratch array holds the quantized weight (the launch finds the weight as launched); the host reshape then
  lays the bias out as one row; the second launch finds the activation as launched, that quantized weight
  and that bias row, and leaves the affine map of the three in the result array.  Composed, the result array
  is the specification of the three arguments.
-/
import proofs.«165504_j27015344292269_1_alg».proof.Proof.Gen.KernelIdeal.Frame
import proofs.«165504_j27015344292269_1_alg».proof.Proof.QuantRegion
import proofs.«165504_j27015344292269_1_alg».proof.Proof.AffineRegion
import proofs.«165504_j27015344292269_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Compose

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The second launch finds the activation as launched: the first launch and the reshape do not write it. -/
theorem entry_activation (c : Dev nD) : V2 m ρ c main_arg0 = m ((c : Thread nD τ).loc main_arg0) :=
  (A_eq1 (V2 m ρ) c 0).symm.trans
    ((((dat1 (V2 m ρ) c).arrAt_in 0 rfl _).symm).trans ((W3_arr m ρ c 0).symm.trans (W3_main_arg0 m ρ c)))

/-- The reshape does not write the first launch's output array. -/
theorem reshape_keeps_quant (c : Dev nD) :
    W2 m ρ c (Proc.devRef .tc main_v0) = W1 m ρ c (Proc.devRef .tc main_v0) :=
  StableHlo.after_of_forall_not_mem (b := Proc.devRef .tc main_v0) _ _ (List.forall_iff_forall_mem.mp (by
    simp only [hostOps1, List.Forall, StableHlo.reshape_writes, Finset.mem_singleton]
    exact StableHlo.devRef_ne_of_ne (by decide)))

/-- The second launch finds, as its weight array, the quantized weight of the weight as launched. -/
theorem entry_weight (c : Dev nD) :
    V2 m ρ c main_v0 = Cert.Spec.quant (m ((c : Thread nD τ).loc main_arg1)) :=
  (reshape_keeps_quant m ρ c).trans ((W1_arr m ρ c 1).trans (Cert.KernelIdeal.QuantRegion.arr_quant (V0 m ρ) c))

/-- The second launch finds, as its bias row, the bias as launched laid out as one row. -/
theorem entry_bias (c : Dev nD) :
    V2 m ρ c main_v1 = Cert.Spec.biasRow (m ((c : Thread nD τ).loc main_arg2)) := by
  show StableHlo.after hostOps1 (W1 m ρ c) (Proc.devRef .tc main_v1) = _
  after_results
  funext i
  obtain ⟨u, j, rfl⟩ : ∃ (u : Fin 1) (j : Fin 4096), i = ix2 u j := ⟨i 0, i 1, eq_ix2 i⟩
  show shapeCast (⟨2, ![1, 4096]⟩ : Shape) (W1 m ρ c (Proc.devRef .tc main_arg2)) shapeCasts_S4096_S1x4096 (ix2 u j) = _
  refine (shapeCast_a_1a_apply _ _ u j).trans ?_
  show W1 m ρ c (Proc.devRef .tc main_arg2) (ix1 j) = m ((c : Thread nD τ).loc main_arg2) (ix1 j)
  exact congrFun ((W1_of_ne m ρ c main_arg2 (by decide)).trans rfl) (ix1 j)

/-- The result array at the last boundary is the specification of the three arguments as launched. -/
theorem result_eq (c : Dev nD) :
    W3 m ρ c (Proc.devRef .tc main_v2)
      = Cert.Spec.out (m ((c : Thread nD τ).loc main_arg0)) (m ((c : Thread nD τ).loc main_arg1))
          (m ((c : Thread nD τ).loc main_arg2)) := by
  refine (W3_arr m ρ c 3).trans ((Cert.KernelIdeal.AffineRegion.arr_affine (V2 m ρ) c).trans ?_)
  rw [entry_activation m ρ c, entry_weight m ρ c, entry_bias m ρ c]
  rfl

end Cert.KernelIdeal.Compose

end
-- ==== Proof.RefValue.lean ====
/-
  The reference, read one stage at a time at an index, is the specification.  Its weight is written in the
  straight-through form  w + (q − w); for a finite w this is q on the extended reals (for an infinite w it
  would not be), which is where the finiteness of the weight is used.
-/
import proofs.«165504_j27015344292269_1_alg».proof.Proof.Gen.ReferenceIdeal.Read
import proofs.«165504_j27015344292269_1_alg».proof.Proof.Spec
import proofs.«165504_j27015344292269_1_alg».proof.Proof.Consts
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Read

/-- On the extended reals a finite a cancels in a + (b − a), whatever b is. -/
theorem add_sub_cancel_of_finite (a b : EReal) (ht : a ≠ ⊤) (hb : a ≠ ⊥) : a + (b - a) = b := by
  lift a to ℝ using ⟨ht, hb⟩
  rw [add_comm]
  exact EReal.sub_add_cancel

/-- A 32-bit integer converted to a float is, on the extended reals, the integer it denotes read signed. -/
theorem sitofp_eq (b : BitVec 32) : FloatOps.sitofp (F := Ideal) .f32 b = ((b.toInt : ℝ) : EReal) := rfl

/-! ## The index maps of the layout stages, by coordinates -/

/-- Row j of the column of row sums reads the squares along row j. -/
theorem idx_rowsum (j k : Fin 4096) :
    idx_main_call0_v1 (idx_main_call0_v2 (ix2 j (0 : Fin 1))) k = ix2 j k :=
  funext fun a => Fin.ext (by match a with | ⟨0, _⟩ => rfl | ⟨1, _⟩ => rfl)

/-- Spreading the scale column over the row: entry (j, k) reads the column at (j, 0). -/
theorem idx_spread (j k : Fin 4096) : idx_main_v3 (ix2 j k) = ix2 j (0 : Fin 1) :=
  funext fun a => Fin.ext (by match a with | ⟨0, _⟩ => rfl | ⟨1, _⟩ => rfl)

/-- The second spreading of the scale column is the same map. -/
theorem idx_spread' (j k : Fin 4096) : idx_main_v9 (ix2 j k) = ix2 j (0 : Fin 1) :=
  funext fun a => Fin.ext (by match a with | ⟨0, _⟩ => rfl | ⟨1, _⟩ => rfl)

/-- The product's left operand at (p, j), term k, is the activation at (p, k). -/
theorem idx_left (p : Fin 8192) (j k : Fin 4096) : lidx_main_v16 (ix2 p j) k = ix2 p k :=
  funext fun a => Fin.ext (by match a with | ⟨0, _⟩ => rfl | ⟨1, _⟩ => rfl)

/-- The product's right operand is the transposed weight: at (p, j), term k, it is the weight at (j, k). -/
theorem idx_right (p : Fin 8192) (j k : Fin 4096) : idx_main_v15 (ridx_main_v16 (ix2 p j) k) = ix2 j k :=
  funext fun a => Fin.ext (by match a with | ⟨0, _⟩ => rfl | ⟨1, _⟩ => rfl)

/-- The bias spread over the rows: entry (p, j) reads b_j. -/
theorem idx_bias (p : Fin 8192) (j : Fin 4096) : idx_main_v17 (idx_main_v18 (ix2 p j)) = ix1 j :=
  funext fun a => Fin.ext (by match a with | ⟨0, _⟩ => rfl)

/-! ## The stages, innermost first -/

/-- The floored row norm: the maximum of the square root of row j's sum of squares and ε is the specification's
    row scale.  The sum starts from the zero word, which is 0. -/
theorem scale_eq (x1 : Cert.Spec.SW.Idx → EReal) (j : Fin 4096) :
    val_main_v2 (F := Ideal) x1 (ix2 j (0 : Fin 1)) = Cert.Spec.rowScale x1 j := by
  rw [val_main_v2_apply, val_main_v0_apply, val_main_call0_v2_apply, val_main_call0_v1_apply, val_main_v1_apply,
    val_main_cst_apply, val_main_call0_cst_apply]
  simp only [Ideal.hostUnary_sqrt_def, Ideal.maximumf_def, Ideal.ofBits_def, Ideal.ofBits_zero_f32, zero_add,
    idx_rowsum, val_main_call0_v0_apply, Ideal.mulf_def]
  rfl

/-- The quantized weight before the straight-through form: entry (j, k) over row j's scale, times 60, rounded,
    clipped between the two integer constants −8 and 7, and scaled back by row j's scale over 60.  Both
    spreadings of the scale column read row j's scale. -/
theorem quant_eq (x1 : Cert.Spec.SW.Idx → EReal) (j k : Fin 4096) :
    val_main_v12 (F := Ideal) x1 (ix2 j k) = Cert.Spec.quant x1 (ix2 j k) := by
  rw [val_main_v12_apply, val_main_v10_apply, val_main_v8_apply, val_main_call2_v4_apply, val_main_call2_v3_apply,
    val_main_c_1_apply, val_main_call2_v2_apply, val_main_call2_v1_apply, val_main_call2_v0_apply, val_main_c_apply,
    val_main_v7_apply, val_main_v6_apply, val_main_v4_apply, val_main_v3_apply, val_main_v5_apply, val_main_cst_0_apply,
    val_main_v9_apply, val_main_v11_apply, val_main_cst_2_apply, idx_spread, idx_spread', scale_eq,
    sitofp_eq, sitofp_eq, Cert.Consts.toInt_neg8, Cert.Consts.toInt_7]
  simp only [Ideal.hostDivf_def, Ideal.hostUnary_roundeven_def, Ideal.minimumf_def, Ideal.maximumf_def,
    Ideal.mulf_def, Ideal.ofBits_def]
  rfl

/-- The straight-through form w + (q − w) is q, the weight being finite. -/
theorem ste_eq (x1 : Cert.Spec.SW.Idx → EReal) (hfin : ∀ i, x1 i ≠ ⊤ ∧ x1 i ≠ ⊥) (j k : Fin 4096) :
    val_main_v14 (F := Ideal) x1 (ix2 j k) = Cert.Spec.quant x1 (ix2 j k) := by
  rw [val_main_v14_apply, val_main_v13_apply, quant_eq, Ideal.addf_def, Ideal.subf_def]
  exact add_sub_cancel_of_finite _ _ (hfin _).1 (hfin _).2

/-- The reference's last stage, as a function of the three argument arrays, is the specification, for a finite weight. -/
theorem ref_eq (x0 : Cert.Spec.SX.Idx → EReal) (x1 : Cert.Spec.SW.Idx → EReal) (x2 : Cert.Spec.SB.Idx → EReal)
    (hfin : ∀ i, x1 i ≠ ⊤ ∧ x1 i ≠ ⊥) :
    val_main_v19 (F := Ideal) x0 x1 x2 = Cert.Spec.out x0 x1 x2 := by
  funext i
  obtain ⟨p, j, rfl⟩ : ∃ (p : Fin 8192) (j : Fin 4096), i = ix2 p j := ⟨i 0, i 1, eq_ix2 i⟩
  rw [val_main_v19_apply, val_main_v16_apply, val_main_v18_apply, val_main_v17_apply, idx_bias, Cert.Spec.out_apply,
    Ideal.addf_def]
  refine congrArg (· + x2 (ix1 j)) (Finset.sum_congr rfl fun k _ => ?_)
  rw [idx_left, val_main_v15_apply, idx_right, ste_eq x1 hfin]

end Cert.ReferenceIdeal.RefValue

end
-- ==== Proof.lean ====
/-
  A linear layer whose weight is quantized row by row before use.  Each row j of the 4096 × 4096 weight w
  has the scale n_j = max (‖w_j‖₂, ε); its entries are sent to the lattice levels
  ℓ_jk = clip (round (w_jk / n_j · 60), −8, 7) and back to q_jk = ℓ_jk · n_j / 60, and the layer's value on
  the 8192 × 4096 activation x is out_ij = Σ_k x_ik · q_jk + b_j.

  The kernel does this in two launches — the first writes q block of rows by block of rows, the second forms
  the 512 × 512 blocks of x·qᵀ + b with the whole contraction length inside one block — with one reshape of the
  bias between them.  The reference computes the same row scales, levels and product with whole-array
  operations, but forms its weight as w + (q − w).

  Over the extended reals, where a change of float format is the identity and every sum is exact, both are
  the one function `Cert.Spec.out` of the three arguments: for the kernel because every launch's blocks are
  restrictions of one whole-array function and tile their array; for the reference stage by stage, the one
  law used being a + (b − a) = b for a real a, which is where the precondition (every entry of w is finite)
  enters.  The bounds −8 and 7 are spelt as binary32 words by one program and as converted integers by the
  other; both denote the same reals.  The idealization changes no operation, so the kernel and its idealized
  reading differ in nothing that needs a statement.
-/
import proofs.«165504_j27015344292269_1_alg».proof.Defs
import proofs.«165504_j27015344292269_1_alg».proof.Proof.Gen.Kernel
import proofs.«165504_j27015344292269_1_alg».proof.Proof.Gen.Kernel.Frame
import proofs.«165504_j27015344292269_1_alg».proof.Proof.Gen.KernelIdeal
import proofs.«165504_j27015344292269_1_alg».proof.Proof.Gen.KernelIdeal.Frame
import proofs.«165504_j27015344292269_1_alg».proof.Proof.Gen.ReferenceIdeal
import proofs.«165504_j27015344292269_1_alg».proof.Proof.Gen.ReferenceIdeal.Run
import proofs.«165504_j27015344292269_1_alg».proof.Proof.Gen.ReferenceIdeal.Read
import proofs.«165504_j27015344292269_1_alg».proof.Proof.Gen.Pre_finite_inputs
import proofs.«165504_j27015344292269_1_alg».proof.Proof.Spec
import proofs.«165504_j27015344292269_1_alg».proof.Proof.Finite
import proofs.«165504_j27015344292269_1_alg».proof.Proof.KRun
import proofs.«165504_j27015344292269_1_alg».proof.Proof.Compose
import proofs.«165504_j27015344292269_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of whole-array operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories agreeing on x, w and b, with w finite, both programs end with `Cert.Spec.out x w b` in their
    result: the kernel by its two launches composed, the reference stage by stage. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Compose.result_eq m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v19_eq]
    exact Cert.ReferenceIdeal.RefValue.ref_eq _ _ _ fun i => Cert.Finite.weight_finite _ _ _ (hpre c) i

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
